-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32x512 : Shape := ⟨3, ![4096, 32, 512]⟩
abbrev S_ : Shape := ⟨0, ![]⟩

class Facts : Prop where
  bcast_S_S4096x32x512 : S_.BroadcastsInDim S4096x32x512 (![] : Fin 0 → Fin S4096x32x512.rank)
  reducesTo_S4096x32x512_S_d0_1_2 : S4096x32x512.ReducesTo [0, 1, 2] S_
  h_S_ : 0 < S_.numel

variable [Facts]

def fn {F : FTy → Type} [FloatOps F] (main_arg0 : FVec F S4096x32x512 .f32) : IVec S_ 1 :=
  let main_v0 : FVec F S4096x32x512 .f32 := Host.absf main_arg0
  let main_cst : FVec F S_ .f32 := constant S_ .f32 0x7F800000#32
  let main_v1 : FVec F S4096x32x512 .f32 := broadcastInDim S4096x32x512 ![] bcast_S_S4096x32x512 main_cst
  let main_v2 : IVec S4096x32x512 1 := cmpf .olt main_v0 main_v1
  let main_c : IVec S_ 1 := constantI S_ 1 1#1
  let main_v3 : IVec S_ 1 := (fun x v => Host.reduce IntOp.andi x v reducesTo_S4096x32x512_S_d0_1_2 h_S_) main_v2 main_c
  main_v3
-- ==== Kernel.lean ====
abbrev S4096x32x512 : Shape := ⟨3, ![4096, 32, 512]⟩
abbrev S128x32x512 : Shape := ⟨3, ![128, 32, 512]⟩
abbrev S128x1x512 : Shape := ⟨3, ![128, 1, 512]⟩

abbrev nBuf : Space → Nat
  | .hbm => 2
  | .vmem => 4
  | .smem => 0
  | _ => 0

abbrev bufTy : (tb : Table) → Fin (tcTables nBuf tb) → BufTy
  | .hbm, ⟨0, _⟩ => ⟨S4096x32x512, .f32⟩
  | .hbm, ⟨1, _⟩ => ⟨S4096x32x512, .f32⟩
  | .local _ .vmem, ⟨0, _⟩ => ⟨S128x32x512, .f32⟩
  | .local _ .vmem, ⟨1, _⟩ => ⟨S128x32x512, .f32⟩
  | .local _ .vmem, ⟨2, _⟩ => ⟨S128x32x512, .f32⟩
  | .local _ .vmem, ⟨3, _⟩ => ⟨S128x32x512, .f32⟩
  | _, _ => ⟨S4096x32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S128x32x512_S128x1x512_0_0_0 : ∀ a, (![0, 0, 0] : Fin 3 → Nat) a + S128x1x512.size a ≤ S128x32x512.size a
  h_S128x1x512 : 0 < S128x1x512.numel
  inb_S128x32x512_S128x32x512_0_0_0 : ∀ a, (![0, 0, 0] : Fin 3 → Nat) a + S128x32x512.size a ≤ S128x32x512.size a
  h_S128x32x512 : 0 < S128x32x512.numel
  broadcasts_S128x1x512_S128x32x512 : S128x1x512.Broadcasts S128x32x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x32x512.size a ≤ S4096x32x512.size a
  hwx0_0 : ∀ i : grid0.Coords, EltTy.bits .f32 = 32 ∨ (Rect.block (s := S4096x32x512) S128x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x32x512.size a ≤ S4096x32x512.size a
  hwx0_1 : ∀ i : grid0.Coords, EltTy.bits .f32 = 32 ∨ (Rect.block (s := S4096x32x512) S128x32x512.size (cc0_transform_1 i) (hinb0_1 i)).WholeWords (EltTy.packing .f32)

variable [Facts₀]

abbrev win0_0 : Pipeline.Window sig grid0 :=
  Pipeline.Window.ofSpec (Memref.whole main_arg0) S128x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x32x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x32x512 : Shape := ⟨3, ![4096, 32, 512]⟩
abbrev S4096x1x512 : Shape := ⟨3, ![4096, 1, 512]⟩

abbrev nBuf : Space → Nat
  | .hbm => 5
  | .vmem => 0
  | .smem => 0
  | _ => 0

abbrev bufTy : (tb : Table) → Fin (tcTables nBuf tb) → BufTy
  | .hbm, ⟨0, _⟩ => ⟨S4096x32x512, .f32⟩
  | .hbm, ⟨1, _⟩ => ⟨S4096x1x512, .f32⟩
  | .hbm, ⟨2, _⟩ => ⟨S4096x32x512, .f32⟩
  | .hbm, ⟨3, _⟩ => ⟨S4096x32x512, .f32⟩
  | .hbm, ⟨4, _⟩ => ⟨S4096x32x512, .f32⟩
  | _, _ => ⟨S4096x32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩

abbrev nD : Nat := 1
abbrev τ : Topo := Topo.v7x

variable {F : FTy → Type} [FloatOps F]

class Facts₀ : Prop where
  slices_S4096x32x512_S4096x1x512_0_0_0 : S4096x32x512.Slices ![0, 0, 0] S4096x1x512
  bcast_S4096x1x512_S4096x32x512_0_1_2 : S4096x1x512.BroadcastsInDim S4096x32x512 (![0, 1, 2] : Fin 3 → Fin S4096x32x512.rank)

variable [Facts₀]

class Facts : Prop extends Facts₀ where

variable [Facts]
-- ==== Proof.RowZeroLaw.lean ====
/-
  The mathematics shared by both sides, with no program in sight.

  The input is an array x of shape [4096, 32, 512].  For every index (b, s, d) write c = x[b, 0, d], the entry of
  row 0 of the same slab b and the same lane d.  One program computes 2 * x[b,s,d] - c, the other
  x[b,s,d] + (x[b,s,d] - c).  On the extended reals these agree for EVERY a and c, infinite ones included:
  2 * a = a + a (checked on bot, a real, top), subtraction is addition of the negative, and addition is associative.
  So no finiteness of the input is used anywhere.
-/
import Idealize.ShloMosaic.PureOps.Ideal
import Idealize.ShloMosaic.Lib.ValueIdx

noncomputable section

namespace Cert.RowZero

open Idealize.ShloMosaic Idealize.ShloMosaic.ValueIdx

/-- The f32 word 0x40000000 (sign 0, exponent 128, fraction 0) denotes the real number 2. -/
theorem ofBits_two : Ideal.ofBits .f32 0x40000000#32 = ((2 : ℝ) : EReal) := by
  simp [Ideal.ofBits, Ideal.ieee, -EReal.coe_mul]; norm_num

/-- Doubling is adding a number to itself, on every extended real. -/
theorem two_mul_eq_add_self (a : EReal) : ((2 : ℝ) : EReal) * a = a + a := by
  induction a using EReal.rec with
  | bot => rw [EReal.coe_mul_bot_of_pos (by norm_num : (0 : ℝ) < 2), EReal.bot_add]
  | coe r => rw [← EReal.coe_mul, ← EReal.coe_add, two_mul]
  | top => rw [EReal.coe_mul_top_of_pos (by norm_num : (0 : ℝ) < 2), EReal.top_add_top]

/-- THE LAW joining the two programs: 2a - c = a + (a - c), for all extended reals a and c. -/
theorem two_mul_sub_eq (a c : EReal) : ((2 : ℝ) : EReal) * a - c = a + (a - c) := by
  rw [two_mul_eq_add_self, sub_eq_add_neg, sub_eq_add_neg, add_assoc]

/-- The shape of the input and of the result. -/
abbrev Sx : Shape := ⟨3, ![4096, 32, 512]⟩

/-- THE RESULT as one function of the input array, index by index: the entry plus its offset from row 0 of its
    own slab, out[b,s,d] = x[b,s,d] + (x[b,s,d] - x[b,0,d]). -/
def plusOffsetFromRowZero (x : Sx.Idx → EReal) : Sx.Idx → EReal :=
  fun i => x i + (x i - x (ix3 (i 0) (0 : Fin 32) (i 2)))

end Cert.RowZero

end
-- ==== Proof.ReferenceRowZero.lean ====
/-
  The reference program, read one operation at a time, is the specification.

  Its four host operations are: slice row 0 of every slab (shape [4096, 1, 512]), broadcast that row back over the 32
  rows, subtract it from the input, add the input.  Read at an index (b, s, d): the slice and the broadcast together
  read the input at (b, 0, d), so the result is x[b,s,d] + (x[b,s,d] - x[b,0,d]).
-/
import proofs.«123641_j85564338471083_1_alg».proof.Proof.Gen.ReferenceIdeal.Read
import proofs.«123641_j85564338471083_1_alg».proof.Proof.RowZeroLaw

noncomputable section

namespace Cert.ReferenceIdeal.RowZero

open Cert.ReferenceIdeal Cert.ReferenceIdeal.Read Idealize.ShloMosaic Idealize.ShloMosaic.ValueIdx Cert.RowZero

/-- Broadcast then slice: index (b, s, d) of the broadcast row reads the input at (b, 0, d). -/
theorem idx_row_zero (i : S4096x32x512.Idx) : idx_main_v0 (idx_main_v1 i) = ix3 (i 0) (0 : Fin 32) (i 2) :=
  funext fun a => Fin.ext (by match a with | ⟨0, _⟩ => rfl | ⟨1, _⟩ => rfl | ⟨2, _⟩ => rfl)

/-- The reference's last stage is the specification of the input. -/
theorem reference_eq (x : (⟨S4096x32x512, .f32⟩ : BufTy).Contents (Elt Ideal)) :
    val_main_v3 (F := Ideal) x = plusOffsetFromRowZero x := by
  funext i
  rw [val_main_v3_apply, val_main_v2_apply, val_main_v1_apply, val_main_v0_apply, idx_row_zero]
  rfl

end Cert.ReferenceIdeal.RowZero

end
-- ==== Proof.KernelRowZero.lean ====
/-
  The kernel's run leaves the specification in the output array.

  The grid has 32 points; point t works on slab rows 128 t .. 128 t + 127 of the input and of the output, all 32 rows
  and all 512 lanes of each, so a block's row 0 IS row 0 of every slab it holds.  The body stores, at block index
  (p, s, d), twice the input block's entry there minus the input block's entry at (p, 0, d).  Carried to the array
  index (128 t + p, s, d) this is 2 x[b,s,d] - x[b,0,d], which is the specification by the law 2a - c = a + (a - c).
  The 32 blocks tile the output array (slab b lies in block b / 128), so the whole array ends at the specification.
-/
import proofs.«123641_j85564338471083_1_alg».proof.Proof.Gen.KernelIdeal.Value
import proofs.«123641_j85564338471083_1_alg».proof.Proof.RowZeroLaw
import Idealize.ShloMosaic.Lib.Pipeline.Value
import Idealize.ShloMosaic.Lib.ValueIdx

set_option maxRecDepth 16384

noncomputable section

namespace Cert.KernelIdeal.RowZero

open Cert.KernelIdeal Cert.KernelIdeal.Gen Idealize.ShloMosaic Idealize.ShloMosaic.TcCoe Idealize.SL.Sem
open Idealize.ShloMosaic.ValueIdx Cert.RowZero
open Idealize.ShloMosaic.Pipeline (Dat)

variable (m : (ℓ : Loc nD τ sig) → Buf (Elt Ideal) ℓ) (ρ : Dev nD → PrngReg)

/-- One entry of a block: if the input block's entry under block index y is the array's entry at e, and the row-0 load's
    entry under y is the array's entry in row 0 of e's slab and lane, then what the body leaves at y is the
    specification at e. -/
theorem block_entry (X : Sx.Idx → EReal) (P0 : Vec Ideal S128x32x512 .f32) (P1 : Vec Ideal S128x1x512 .f32)
    (y : S128x32x512.Idx) (e : Sx.Idx)
    (h0 : P0 (Value.ix1_0 y) = X e) (h1 : P1 (Value.ix1_1 y) = X (ix3 (e 0) (0 : Fin 32) (e 2))) :
    Value.E1 (F := Ideal) P0 P1 y = plusOffsetFromRowZero X e := by
  show Ideal.ofBits .f32 0x40000000#32 * P0 (Value.ix1_0 y) - P1 (Value.ix1_1 y)
    = X e + (X e - X (ix3 (e 0) (0 : Fin 32) (e 2)))
  rw [h0, h1, ofBits_two]
  exact two_mul_sub_eq _ _

/-- The two index maps over the grid: both windows sit on slab block t, at row block 0 and lane block 0. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- Every slab block is some point's. -/
theorem idx_onto : ∀ q : Fin 32, ∃ t : Fin cfg0.N, t.val = q.val :=
  (by decide +kernel : ∀ q : Fin 32, ∃ t : Fin grid0.N, t.val = q.val)

/-- What point t writes back is block t of the specification of the input array. -/
theorem flushed_eq (c : Dev nD) (t : Fin cfg0.N) :
    (dats m 0 c).flushed 1 t
      = ((cfg0.win 1).blk t).view.read (Elt Ideal) (plusOffsetFromRowZero (V m c main_arg0)) := by
  rw [Value.flushed1]
  unfold out0_1
  obtain ⟨e0, e1, e2, e3, e4, e5⟩ := idx_facts t
  funext j
  refine (Value.canon1_eq (View.ld (iblk m c 0 t) r0_1) (View.ld (iblk m c 0 t) r0_0) j).trans ?_
  refine block_entry (V m c main_arg0) _ _ j _ ?_ ?_
  · -- the whole-block load under j is the array's entry in block t at j
    show V m c main_arg0 (((cfg0.win 0).blk t).view.emb (r0_1.emb (Value.ix1_0 j)))
      = V m c main_arg0 (((cfg0.win 1).blk t).view.emb j)
    refine congrArg (V m c main_arg0) (funext fun a => Fin.ext ?_)
    match a with
    | ⟨0, _⟩ =>
      show win0_0.index t (0 : Fin 3) * 128 + 1 * (0 + 1 * (j 0).val) = win0_1.index t (0 : Fin 3) * 128 + 1 * (j 0).val
      omega
    | ⟨1, _⟩ =>
      show win0_0.index t (1 : Fin 3) * 32 + 1 * (0 + 1 * (j 1).val) = win0_1.index t (1 : Fin 3) * 32 + 1 * (j 1).val
      omega
    | ⟨2, _⟩ =>
      show win0_0.index t (2 : Fin 3) * 512 + 1 * (0 + 1 * (j 2).val) = win0_1.index t (2 : Fin 3) * 512 + 1 * (j 2).val
      omega
  · -- the row-0 load under j is the array's entry in row 0 of the same slab and lane
    show V m c main_arg0 (((cfg0.win 0).blk t).view.emb (r0_0.emb (Value.ix1_1 j)))
      = V m c main_arg0 (ix3 ((((cfg0.win 1).blk t).view.emb j) 0) (0 : Fin 32) ((((cfg0.win 1).blk t).view.emb j) 2))
    refine congrArg (V m c main_arg0) (funext fun a => Fin.ext ?_)
    match a with
    | ⟨0, _⟩ =>
      show win0_0.index t (0 : Fin 3) * 128 + 1 * (0 + 1 * (j 0).val) = win0_1.index t (0 : Fin 3) * 128 + 1 * (j 0).val
      omega
    | ⟨1, _⟩ =>
      show win0_0.index t (1 : Fin 3) * 32 + 1 * (0 + 1 * 0) = 0
      omega
    | ⟨2, _⟩ =>
      show win0_0.index t (2 : Fin 3) * 512 + 1 * (0 + 1 * (j 2).val) = win0_1.index t (2 : Fin 3) * 512 + 1 * (j 2).val
      omega

/-- An array index lies in point t's output block iff each coordinate lies in the block's range on its axis. -/
theorem mem_blk (t : Fin cfg0.N) (i : S4096x32x512.Idx) :
    i ∈ ((cfg0.win 1).blk t).view.set ↔ ∀ a : Fin 3, win0_1.index t a * S128x32x512.size a ≤ (i a).val
      ∧ (i a).val < win0_1.index t a * S128x32x512.size a + S128x32x512.size a := by
  show i ∈ ((View.whole main_v0).slice (win0_1.rect t)).set ↔ _
  rw [View.set_slice_whole, Rect.mem_set_unit]
  exact Iff.rfl

/-- The 32 output blocks tile the array: index (b, s, d) lies in the block of point b / 128, which writes back. -/
theorem cover (i : S4096x32x512.Idx) :
    ∃ t : Fin cfg0.N, (cfg0.win 1).flush t = true ∧ i ∈ ((cfg0.win 1).blk t).view.set := by
  have hi0 : (i 0).val < 4096 := (i 0).isLt
  have hi1 : (i 1).val < 32 := (i 1).isLt
  have hi2 : (i 2).val < 512 := (i 2).isLt
  obtain ⟨t, ht⟩ := idx_onto ⟨(i 0).val / 128, by omega⟩
  have ht' : t.val = (i 0).val / 128 := ht
  obtain ⟨e0, e1, e2, e3, e4, e5⟩ := idx_facts t
  refine ⟨t, flush0_1 t, ?_⟩
  rw [mem_blk]
  intro a
  match a with
  | ⟨0, _⟩ =>
    show win0_1.index t (0 : Fin 3) * 128 ≤ (i 0).val ∧ (i 0).val < win0_1.index t (0 : Fin 3) * 128 + 128
    omega
  | ⟨1, _⟩ =>
    show win0_1.index t (1 : Fin 3) * 32 ≤ (i 1).val ∧ (i 1).val < win0_1.index t (1 : Fin 3) * 32 + 32
    omega
  | ⟨2, _⟩ =>
    show win0_1.index t (2 : Fin 3) * 512 ≤ (i 2).val ∧ (i 2).val < win0_1.index t (2 : Fin 3) * 512 + 512
    omega

/-- The output array after the run is the specification of the input array as launched. -/
theorem final (c : Dev nD) :
    (dats m 0 c).arrAt 1 cfg0.N = plusOffsetFromRowZero (m ((c : Thread nD τ).loc main_arg0)) :=
  (dats m 0 c).arrAt_eq_of_cover 1 (plusOffsetFromRowZero (V m c main_arg0)) (fun t _ => flushed_eq m c t) cover

/-- Every weakly fair execution of the kernel program ends with the result array at the specification of the input
    and the input unchanged. -/
theorem run : θ_run defs (onTc (τ := τ) (main (F := Ideal))) ⟨m, fun _ => 0, ρ⟩ fun r => ∀ c : Dev nD,
      r.2.mem ((c : Thread nD τ).loc main_v0) = plusOffsetFromRowZero (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.RowZero

end
-- ==== Proof.lean ====
/-
  The kernel against its reference, over the extended reals.

  Input x of shape [4096, 32, 512].  The kernel walks the 4096 slabs in 32 blocks of 128 and stores
  2 * x[b,s,d] - x[b,0,d]; the reference computes x[b,s,d] + (x[b,s,d] - x[b,0,d]) with a slice, a broadcast, a
  subtraction and an addition.  Both are the one function `plusOffsetFromRowZero` of the input: the reference by
  reading its four operations at an index (ReferenceRowZero), the kernel because each block's row 0 is row 0 of the
  slabs it holds, the blocks tile the array, and 2a - c = a + (a - c) on every extended real (KernelRowZero, RowZeroLaw).
  The law holds at the infinities too, so the finiteness of the input is never opened.

  The three frames: the two kernel programs run, fault-free, with the input array unchanged (the generated frame runs);
  the reference's frame is its run with the result dropped.  The idealization rewrote no operation, so there is
  nothing to preserve.
-/
import proofs.«123641_j85564338471083_1_alg».proof.Defs
import proofs.«123641_j85564338471083_1_alg».proof.Proof.Gen.Kernel
import proofs.«123641_j85564338471083_1_alg».proof.Proof.Gen.Kernel.Skeleton
import proofs.«123641_j85564338471083_1_alg».proof.Proof.Gen.Kernel.Launch
import proofs.«123641_j85564338471083_1_alg».proof.Proof.Gen.Kernel.Points
import proofs.«123641_j85564338471083_1_alg».proof.Proof.Gen.Kernel.Frame
import proofs.«123641_j85564338471083_1_alg».proof.Proof.Gen.KernelIdeal
import proofs.«123641_j85564338471083_1_alg».proof.Proof.Gen.KernelIdeal.Skeleton
import proofs.«123641_j85564338471083_1_alg».proof.Proof.Gen.KernelIdeal.Launch
import proofs.«123641_j85564338471083_1_alg».proof.Proof.Gen.KernelIdeal.Points
import proofs.«123641_j85564338471083_1_alg».proof.Proof.Gen.KernelIdeal.Frame
import proofs.«123641_j85564338471083_1_alg».proof.Proof.Gen.ReferenceIdeal
import proofs.«123641_j85564338471083_1_alg».proof.Proof.Gen.Pre_finite_inputs
import proofs.«123641_j85564338471083_1_alg».proof.Proof.Gen.KernelIdeal.Value
import proofs.«123641_j85564338471083_1_alg».proof.Proof.Gen.ReferenceIdeal.Run
import proofs.«123641_j85564338471083_1_alg».proof.Proof.Gen.ReferenceIdeal.Read
import proofs.«123641_j85564338471083_1_alg».proof.Proof.RowZeroLaw
import proofs.«123641_j85564338471083_1_alg».proof.Proof.ReferenceRowZero
import proofs.«123641_j85564338471083_1_alg».proof.Proof.KernelRowZero
import Idealize.ShloMosaic.Adequacy
import Idealize.ShloMosaic.Init

noncomputable section

namespace Cert.Proof

open Idealize.ShloMosaic Idealize.ShloMosaic.TcCoe Idealize.SL.Sem

/-- The word-level kernel runs and leaves its input as it was. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its input as it was: its run, the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- From inputs that agree, both programs end with the result x + (x - row 0 of x's slab), entry by entry. -/
theorem algebraic : Cert.algebraic_KernelIdeal_ReferenceIdeal := by
  intro m ρ m' ρ' _ hagree
  refine ⟨_, Cert.KernelIdeal.RowZero.run m ρ, ?_⟩
  refine (θ_run Cert.ReferenceIdeal.defs _ _).mono (fun _ h c => ⟨(h c).1.trans ?_, (h c).2⟩)
    (Cert.ReferenceIdeal.Value.run (F := Ideal) m' ρ')
  exact ((Cert.ReferenceIdeal.Read.val_main_v3_eq _).trans (Cert.ReferenceIdeal.RowZero.reference_eq _)).trans
    (congrArg Cert.RowZero.plusOffsetFromRowZero (hagree c))

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
